-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S8192x64 : Shape := ⟨2, ![8192, 64]⟩
abbrev S8192x1 : Shape := ⟨2, ![8192, 1]⟩
abbrev S1 : Shape := ⟨1, ![1]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S8192x1 : S_.BroadcastsInDim S8192x1 (![] : Fin 0 → Fin S8192x1.rank)
  reducesTo_S8192x1_S_d0_1 : S8192x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg3 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_cst_6 : FVec F S_ .f32 := constant S_ .f32 0x00000000#32
  let main_v19 : FVec F S1 .f32 := broadcastInDim S1 ![] bcast_S_S1 main_cst_6
  let main_v20 : IVec S1 1 := cmpf .une main_arg3 main_v19
  let main_c_7 : IVec S_ 1 := constantI S_ 1 1#1
  let main_v21 : IVec S_ 1 := (fun x v => Host.reduce IntOp.andi x v reducesTo_S1_S_d0 h_S_) main_v20 main_c_7
  let main_v22 : IVec S_ 1 := andi main_v18 main_v21
  main_v22

def fn {F : FTy → Type} [FloatOps F] (main_arg0 : FVec F S16384x64 .f32) (main_arg1 : FVec F S8192x64 .f32) (main_arg2 : FVec F S8192x1 .f32) (main_arg3 : FVec F S1 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg3 main_v13 main_v16
-- ==== Kernel.lean ====
abbrev S16384x64 : Shape := ⟨2, ![16384, 64]⟩
abbrev S8192x64 : Shape := ⟨2, ![8192, 64]⟩
abbrev S8192x1 : Shape := ⟨2, ![8192, 1]⟩
abbrev S1 : Shape := ⟨1, ![1]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 21
  | .vmem => 13
  | .smem => 0
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S8192x1, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16384x64, .f32⟩
  | .hbm, ⟨8, _⟩ => ⟨S16384x64, .f32⟩
  | .hbm, ⟨9, _⟩ => ⟨S8192x64, .f32⟩
  | .hbm, ⟨10, _⟩ => ⟨S8192x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S8192x64, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S1x8192, .f32⟩
  | .hbm, ⟨20, _⟩ => ⟨S16384x1, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1_S_ : S1.ShapeCasts S_
  bcast_S_S16384x64 : S_.BroadcastsInDim S16384x64 (![] : Fin 0 → Fin S16384x64.rank)
  bcast_S_S8192x64 : S_.BroadcastsInDim S8192x64 (![] : Fin 0 → Fin S8192x64.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S8192x64_S8192_d1 : S8192x64.ReducesTo [1] S8192
  bcast_S8192_S8192x1_0 : S8192.BroadcastsInDim S8192x1 (![0] : Fin 1 → Fin S8192x1.rank)
  transposes_S8192x1_S1x8192_1_0 : S8192x1.Transposes [1, 0] S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x64_S1024x64_S1024x1024_1_1_0_0_n_n_wf : DotDims.WF S1024x64 S1024x64 S1024x1024 [1] [1] [0] [0] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S16384x1.size a
  hwx0_5 : ∀ i : grid0.Coords, EltTy.bits .f32 = 32 ∨ (Rect.block (s := S16384x1) S1024x1.size (cc0_transform_5 i) (hinb0_5 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_v3) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x64 : Shape := ⟨2, ![16384, 64]⟩
abbrev S8192x64 : Shape := ⟨2, ![8192, 64]⟩
abbrev S8192x1 : Shape := ⟨2, ![8192, 1]⟩
abbrev S1 : Shape := ⟨1, ![1]⟩
abbrev S1x1 : Shape := ⟨2, ![1, 1]⟩
abbrev S_ : Shape := ⟨0, ![]⟩
abbrev S16384 : Shape := ⟨1, ![16384]⟩
abbrev S16384x1 : Shape := ⟨2, ![16384, 1]⟩
abbrev S64x8192 : Shape := ⟨2, ![64, 8192]⟩
abbrev S16384x8192 : Shape := ⟨2, ![16384, 8192]⟩
abbrev S8192 : Shape := ⟨1, ![8192]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S8192x1, .f32⟩
  | .hbm, ⟨3, _⟩ => ⟨S1, .f32⟩
  | .hbm, ⟨4, _⟩ => ⟨S1x1, .f32⟩
  | .hbm, ⟨5, _⟩ => ⟨S16384x64, .f32⟩
  | .hbm, ⟨6, _⟩ => ⟨S16384x64, .f32⟩
  | .hbm, ⟨7, _⟩ => ⟨S1x1, .f32⟩
  | .hbm, ⟨8, _⟩ => ⟨S8192x64, .f32⟩
  | .hbm, ⟨9, _⟩ => ⟨S8192x64, .f32⟩
  | .hbm, ⟨10, _⟩ => ⟨S16384x64, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S64x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S8192x64, .f32⟩
  | .hbm, ⟨22, _⟩ => ⟨S_, .f32⟩
  | .hbm, ⟨23, _⟩ => ⟨S8192, .f32⟩
  | .hbm, ⟨24, _⟩ => ⟨S1x8192, .f32⟩
  | .hbm, ⟨25, _⟩ => ⟨S16384x8192, .f32⟩
  | .hbm, ⟨26, _⟩ => ⟨S16384x8192, .f32⟩
  | .hbm, ⟨27, _⟩ => ⟨S_, .f32⟩
  | .hbm, ⟨28, _⟩ => ⟨S16384x8192, .f32⟩
  | .hbm, ⟨29, _⟩ => ⟨S16384x8192, .f32⟩
  | .hbm, ⟨30, _⟩ => ⟨S_, .f32⟩
  | .hbm, ⟨31, _⟩ => ⟨S16384x8192, .f32⟩
  | .hbm, ⟨32, _⟩ => ⟨S16384x8192, .f32⟩
  | .hbm, ⟨33, _⟩ => ⟨S16384x8192, .f32⟩
  | .hbm, ⟨34, _⟩ => ⟨S16384x1, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S16384x64_0_1 : S1x1.BroadcastsInDim S16384x64 (![0, 1] : Fin 2 → Fin S16384x64.rank)
  bcast_S1x1_S8192x64_0_1 : S1x1.BroadcastsInDim S8192x64 (![0, 1] : Fin 2 → Fin S8192x64.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  transposes_S8192x64_S64x8192_1_0 : S8192x64.Transposes [1, 0] S64x8192
  bcast_S_S16384x8192 : S_.BroadcastsInDim S16384x8192 (![] : Fin 0 → Fin S16384x8192.rank)
  bcast_S16384x1_S16384x8192_0_1 : S16384x1.BroadcastsInDim S16384x8192 (![0, 1] : Fin 2 → Fin S16384x8192.rank)
  reducesTo_S8192x64_S8192_d1 : S8192x64.ReducesTo [1] S8192
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  dot_S16384x64_S64x8192_S16384x8192_1_0_0_1_n_n_wf : DotDims.WF S16384x64 S64x8192 S16384x8192 [1] [0] [0] [1] [] []
  dot_S16384x8192_S8192x1_S16384x1_1_0_0_1_n_n_wf : DotDims.WF S16384x8192 S8192x1 S16384x1 [1] [0] [0] [1] [] []

variable [Facts₀]

def dot_S16384x64_S64x8192_S16384x8192_1_0_0_1_n_n : DotDims S16384x64 S64x8192 S16384x8192 where
  lhsContracting := [1]
  rhsContracting := [0]
  lhsNonContracting := [0]
  rhsNonContracting := [1]
  lhsBatch := []
  rhsBatch := []
  wf := dot_S16384x64_S64x8192_S16384x8192_1_0_0_1_n_n_wf
def dot_S16384x8192_S8192x1_S16384x1_1_0_0_1_n_n : DotDims S16384x8192 S8192x1 S16384x1 where
  lhsContracting := [1]
  rhsContracting := [0]
  lhsNonContracting := [0]
  rhsNonContracting := [1]
  lhsBatch := []
  rhsBatch := []
  wf := dot_S16384x8192_S8192x1_S16384x1_1_0_0_1_n_n_wf

class Facts : Prop extends Facts₀ where

variable [Facts]
-- ==== Proof.Pieces.lean ====
/-
  What one run of the kernel body leaves behind, as values.

  The body keeps a running column (one entry per test row of the block) in a scratch buffer.  At the first point of a
  row of blocks it first overwrites the column with zeros; at every point it then replaces the column by the accumulating
  payload of the five input blocks and of what the column held; at the last point of the row it also copies the column
  to the output block.  So after the body the column — and at the last point the output block — is that payload of
  the inputs and of the column's previous contents (zeros at the first point).
-/
import proofs.«134483_j1632087572587_1_alg».proof.Proof.Gen.KernelIdeal.Frame
import Idealize.ShloMosaic.Lib.Pipeline.Value
import Idealize.ShloMosaic.Lib.Tactic

noncomputable section

namespace Cert.Krr.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First point of a row of blocks: the column is reset to zeros and then accumulated into, so it ends at the payload
    over the zero column. -/
theorem column_first (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x64 .f32) (x1 : Vec F S1024x64 .f32) (x2 : Vec F S1024x1 .f32) (x3 : Vec F S1x1024 .f32) (x4 : Vec F S1024x1 .f32) :
    sout0_A_0 c i arg2 harg2 arg3 harg3 arg4 harg4 arg5 harg5 arg6 harg6 arg7 harg7 arg8 harg8 hc0 hc1 x0 x1 x2 x3 x4 = k0_pay2 x0 x1 x2 x3 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg8.read_unread, View.ld_unit_zero (S := S1024x64) hz, View.ld_unit_zero (S := S1024x1) hz, View.ld_unit_zero (S := S1x1024) hz]

/-- A middle point: the column ends at the payload over what the point before left in it. -/
theorem column_middle (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x64 .f32) (x1 : Vec F S1024x64 .f32) (x2 : Vec F S1024x1 .f32) (x3 : Vec F S1x1024 .f32) (x4 : Vec F S1024x1 .f32) (xs0 : Vec F S1024x1 .f32) :
    sout0_B_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg8.read_unread, View.ld_unit_zero (S := S1024x64) hz, View.ld_unit_zero (S := S1024x1) hz, View.ld_unit_zero (S := S1x1024) hz]

/-- The last point of a row of blocks: the column ends at the payload over what the point before left in it … -/
theorem column_last (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x64 .f32) (x1 : Vec F S1024x64 .f32) (x2 : Vec F S1024x1 .f32) (x3 : Vec F S1x1024 .f32) (x4 : Vec F S1024x1 .f32) (xs0 : Vec F S1024x1 .f32) :
    sout0_C_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg8.read_unread, View.ld_unit_zero (S := S1024x64) hz, View.ld_unit_zero (S := S1024x1) hz, View.ld_unit_zero (S := S1x1024) hz]

/-- … and the output block is a copy of the column just stored. -/
theorem output_last (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x64 .f32) (x1 : Vec F S1024x64 .f32) (x2 : Vec F S1024x1 .f32) (x3 : Vec F S1x1024 .f32) (x4 : Vec F S1024x1 .f32) (xs0 : Vec F S1024x1 .f32) :
    out0_C_5 c i arg2 harg2 arg3 harg3 arg4 harg4 arg5 harg5 arg6 harg6 arg7 harg7 arg8 harg8 hc0 hc1 x0 x1 x2 x3 x4 xs0 = k0_pay2 x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg6.read_unread, harg8.read_unread, View.ld_unit_zero (S := S1024x64) hz, View.ld_unit_zero (S := S1024x1) hz, View.ld_unit_zero (S := S1x1024) hz]

end Cert.Krr.Pieces

end
-- ==== Proof.Blocks.lean ====
/-
  The blocks the kernel body reads at a grid point, as entries of the whole arrays.

  The grid has 16 × 8 points, numbered row by row: point `t` works on the block of test rows  1024·(t / 8) … +1023  and
  the block of train rows  1024·(t % 8) … +1023.  Each input window's block at `t` is the corresponding rectangle of
  its array: test features and test norms move with `t / 8`; train features, train norms (laid out as one row) and
  weights move with `t % 8`.
-/
import proofs.«134483_j1632087572587_1_alg».proof.Proof.Gen.KernelIdeal.Frame
import Idealize.ShloMosaic.Lib.Pipeline.Value
import Idealize.ShloMosaic.Lib.ValueIdx

noncomputable section

namespace Cert.Krr.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps, decided once over the 128 points. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val % 8 ∧ win0_4.index t (1 : Fin 2) = 0
    ∧ win0_5.index t (0 : Fin 2) = t.val / 8 ∧ win0_5.index t (1 : Fin 2) = 0 :=
  (by decide +kernel : ∀ t : Fin grid0.N, _)

/-- A test row of point `t`'s block is a row of the whole array. -/
theorem testRow_lt (t : Fin cfg0.N) (p : Fin 1024) : 1024 * (t.val / 8) + p.val < 16384 := by
  have := t.isLt; have hN : cfg0.N = 128 := N_0; omega

/-- A train row of point `t`'s block is a row of the whole array. -/
theorem trainRow_lt (t : Fin cfg0.N) (q : Fin 1024) : 1024 * (t.val % 8) + q.val < 8192 := by
  omega

/-- The test row of the whole array that row `p` of point `t`'s block is. -/
abbrev testRow (t : Fin cfg0.N) (p : Fin 1024) : Fin 16384 := ⟨1024 * (t.val / 8) + p.val, testRow_lt t p⟩
/-- The train row of the whole array that row `q` of point `t`'s block is. -/
abbrev trainRow (t : Fin cfg0.N) (q : Fin 1024) : Fin 8192 := ⟨1024 * (t.val % 8) + q.val, trainRow_lt t q⟩

/-- The five input blocks at a point, at their literal types. -/
abbrev xblk (c : Dev nD) (t : Fin cfg0.N) : Vec F S1024x64 .f32 := iblk m c 0 t
abbrev tblk (c : Dev nD) (t : Fin cfg0.N) : Vec F S1024x64 .f32 := iblk m c 1 t
abbrev xsqblk (c : Dev nD) (t : Fin cfg0.N) : Vec F S1024x1 .f32 := iblk m c 2 t
abbrev tsqblk (c : Dev nD) (t : Fin cfg0.N) : Vec F S1x1024 .f32 := iblk m c 3 t
abbrev ablk (c : Dev nD) (t : Fin cfg0.N) : Vec F S1024x1 .f32 := iblk m c 4 t

theorem xblk_apply (c : Dev nD) (t : Fin cfg0.N) (p : Fin 1024) (k : Fin 64) :
    xblk m c t (ix2 p k) = (V m c main_v3 : S16384x64.Idx → Elt F .f32) (ix2 (testRow t p) k) := by
  show iblk m c 0 t (ix2 p k) = _
  unfold iblk
  rw [View.read_apply]
  show V m c main_v3 _ = V m c main_v3 _
  congr 1
  funext a
  apply Fin.ext
  obtain ⟨e0, e1, -⟩ := idx_facts t
  match a with
  | ⟨0, _⟩ => show win0_0.index t 0 * 1024 + 1 * p.val = 1024 * (t.val / 8) + p.val; rw [e0]; omega
  | ⟨1, _⟩ => show win0_0.index t 1 * 64 + 1 * k.val = k.val; rw [e1]; omega

theorem tblk_apply (c : Dev nD) (t : Fin cfg0.N) (q : Fin 1024) (k : Fin 64) :
    tblk m c t (ix2 q k) = (V m c main_v5 : S8192x64.Idx → Elt F .f32) (ix2 (trainRow t q) k) := by
  show iblk m c 1 t (ix2 q k) = _
  unfold iblk
  rw [View.read_apply]
  show V m c main_v5 _ = V m c main_v5 _
  congr 1
  funext a
  apply Fin.ext
  obtain ⟨-, -, e0, e1, -⟩ := idx_facts t
  match a with
  | ⟨0, _⟩ => show win0_1.index t 0 * 1024 + 1 * q.val = 1024 * (t.val % 8) + q.val; rw [e0]; omega
  | ⟨1, _⟩ => show win0_1.index t 1 * 64 + 1 * k.val = k.val; rw [e1]; omega

theorem xsqblk_apply (c : Dev nD) (t : Fin cfg0.N) (p : Fin 1024) (u : Fin 1) :
    xsqblk m c t (ix2 p u) = (V m c main_v8 : S16384x1.Idx → Elt F .f32) (ix2 (testRow t p) u) := by
  show iblk m c 2 t (ix2 p u) = _
  unfold iblk
  rw [View.read_apply]
  show V m c main_v8 _ = V m c main_v8 _
  congr 1
  funext a
  apply Fin.ext
  obtain ⟨-, -, -, -, e0, e1, -⟩ := idx_facts t
  match a with
  | ⟨0, _⟩ => show win0_2.index t 0 * 1024 + 1 * p.val = 1024 * (t.val / 8) + p.val; rw [e0]; omega
  | ⟨1, _⟩ => show win0_2.index t 1 * 1 + 1 * u.val = u.val; rw [e1]; omega

theorem tsqblk_apply (c : Dev nD) (t : Fin cfg0.N) (u : Fin 1) (q : Fin 1024) :
    tsqblk m c t (ix2 u q) = (V m c main_v12 : S1x8192.Idx → Elt F .f32) (ix2 u (trainRow t q)) := by
  show iblk m c 3 t (ix2 u q) = _
  unfold iblk
  rw [View.read_apply]
  show V m c main_v12 _ = V m c main_v12 _
  congr 1
  funext a
  apply Fin.ext
  obtain ⟨-, -, -, -, -, -, e0, e1, -⟩ := idx_facts t
  match a with
  | ⟨0, _⟩ => show win0_3.index t 0 * 1 + 1 * u.val = u.val; rw [e0]; omega
  | ⟨1, _⟩ => show win0_3.index t 1 * 1024 + 1 * q.val = 1024 * (t.val % 8) + q.val; rw [e1]; omega

theorem ablk_apply (c : Dev nD) (t : Fin cfg0.N) (q : Fin 1024) (u : Fin 1) :
    ablk m c t (ix2 q u) = (V m c main_arg2 : S8192x1.Idx → Elt F .f32) (ix2 (trainRow t q) u) := by
  show iblk m c 4 t (ix2 q u) = _
  unfold iblk
  rw [View.read_apply]
  show V m c main_arg2 _ = V m c main_arg2 _
  congr 1
  funext a
  apply Fin.ext
  obtain ⟨-, -, -, -, -, -, -, -, e0, e1, -⟩ := idx_facts t
  match a with
  | ⟨0, _⟩ => show win0_4.index t 0 * 1024 + 1 * q.val = 1024 * (t.val % 8) + q.val; rw [e0]; omega
  | ⟨1, _⟩ => show win0_4.index t 1 * 1 + 1 * u.val = u.val; rw [e1]; omega

end Cert.Krr.Blocks

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.LibMatmulNT.lean ====
/-
  General lemma: a matrix product with both operands contracted on their second axis, read at an index, at the ideal
  instance.

  * `[M,K]·[N,K]ᵀ` into a zero accumulator, at `(p, q)`, is `Σ k, lhs (p, k) · rhs (q, k)`.
-/
import Idealize.ShloMosaic.PureOps.Ideal.Laws
import Idealize.ShloMosaic.Lib.ValueIdx

noncomputable section

namespace Cert.RowOps

open Idealize.ShloMosaic Idealize.ShloMosaic.ValueIdx

/-- A matrix product `[M,K]·[N,K]ᵀ` (the columns of the left operand contracted with the columns of the right operand)
    into the zero accumulator, read at `(p, q)`: the sum over `k` of `lhs (p, k) · rhs (q, k)`, the inner product of
    row `p` of the left operand and row `q` of the right operand. -/
theorem matmulNT_apply {M N K : ℕ} {φ₁ φ₂ : FTy}
    (wf : DotDims.WF ⟨2, ![M, K]⟩ ⟨2, ![N, K]⟩ ⟨2, ![M, N]⟩ [1] [1] [0] [0] [] [])
    (prec : Option ContractPrecision) (lhs : FVec Ideal ⟨2, ![M, K]⟩ φ₁) (rhs : FVec Ideal ⟨2, ![N, K]⟩ φ₂)
    (p : Fin M) (q : Fin N) :
    FloatOps.matmul (⟨[1], [1], [0], [0], [], [], wf⟩ : DotDims ⟨2, ![M, K]⟩ ⟨2, ![N, K]⟩ ⟨2, ![M, N]⟩) prec lhs rhs
        (constant ⟨2, ![M, N]⟩ .f32 0x00000000#32) (ix2 p q)
      = ∑ k : Fin K, lhs (ix2 p k) * rhs (ix2 q k) := by
  set D : DotDims ⟨2, ![M, K]⟩ ⟨2, ![N, K]⟩ ⟨2, ![M, N]⟩ := ⟨[1], [1], [0], [0], [], [], wf⟩ with hD
  -- the left operand's row axis is the result's first axis
  have l0 : ∀ (i : (⟨2, ![M, N]⟩ : Shape).Idx) (c : D.contr.Idx), (D.lhsIdx i c 0).val = (i 0).val := by
    intro i c
    unfold DotDims.lhsIdx
    rw [dif_neg (show ¬(0 : Fin 2) ∈ D.lhsBatch from List.not_mem_nil), dif_pos (show (0 : Fin 2) ∈ D.lhsNonContracting from List.mem_singleton.mpr rfl)]
    rfl
  -- its column axis is the contracted one
  have l1 : ∀ (i : (⟨2, ![M, N]⟩ : Shape).Idx) (c : D.contr.Idx), (D.lhsIdx i c 1).val = (c ⟨0, Nat.one_pos⟩).val :=
    fun i c => D.lhsIdx_val_of_single rfl i c
  -- the right operand's row axis is the result's second axis
  have r0 : ∀ (i : (⟨2, ![M, N]⟩ : Shape).Idx) (c : D.contr.Idx), (D.rhsIdx i c 0).val = (i 1).val := by
    intro i c
    unfold DotDims.rhsIdx
    rw [dif_neg (show ¬(0 : Fin 2) ∈ D.rhsBatch from List.not_mem_nil), dif_pos (show (0 : Fin 2) ∈ D.rhsNonContracting from List.mem_singleton.mpr rfl)]
    rfl
  -- its column axis is the contracted one
  have r1 : ∀ (i : (⟨2, ![M, N]⟩ : Shape).Idx) (c : D.contr.Idx), (D.rhsIdx i c 1).val = (c ⟨0, Nat.one_pos⟩).val :=
    fun i c => D.rhsIdx_val_of_single rfl i c
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p q) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p q) ((contrEquiv1 D K rfl rfl).symm k) = ix2 q k := funext fun ax => Fin.ext (by
    match ax with
    | ⟨0, _⟩ => exact r0 _ _
    | ⟨1, _⟩ => exact (r1 _ _).trans hk)
  rw [el, er]

end Cert.RowOps

end
-- ==== Proof.Spec.lean ====
/-
  The function both programs compute, over the extended reals.

  Inputs: a test array `x` (16384 rows of 64 features), a train array `t` (8192 rows of 64 features), one weight per
  train row `a`, and a scale factor `s` (the reciprocal of the length scale).  With every feature multiplied by `s`,
  the squared distance of test row `p` and train row `q` is written  ‖x_p‖² − 2·⟨x_p, t_q⟩ + ‖t_q‖²,  it is clamped
  at zero from below, the kernel entry is  exp(−½ · that),  and the result at row `p` is  Σ_q kernel(p, q) · a_q.

  Also here: the two algebraic facts that join the programs — a quotient by a nonzero scalar is the product with its
  reciprocal, and a sum over 8192 train rows is the sum of its eight consecutive blocks of 1024.
-/
import Idealize.ShloMosaic.PureOps.Ideal.Laws
import Idealize.ShloMosaic.Lib.ValueIdx
import Mathlib.Algebra.BigOperators.Fin
import Mathlib.Algebra.BigOperators.Intervals

noncomputable section

namespace Cert.Krr

open Idealize.ShloMosaic Idealize.ShloMosaic.ValueIdx

abbrev T16384x64 : Shape := ⟨2, ![16384, 64]⟩
abbrev T8192x64 : Shape := ⟨2, ![8192, 64]⟩
abbrev T8192x1 : Shape := ⟨2, ![8192, 1]⟩
abbrev T16384x1 : Shape := ⟨2, ![16384, 1]⟩

/-- The literal 2. -/
abbrev two : EReal := Ideal.ofBits .f32 0x40000000#32
/-- The literal −½. -/
abbrev mhalf : EReal := Ideal.ofBits .f32 0xBF000000#32

/-- The squared norm of test row `p`, every feature scaled by `s`. -/
def sqX (x : T16384x64.Idx → EReal) (s : EReal) (p : Fin 16384) : EReal :=
  ∑ k : Fin 64, (x (ix2 p k) * s) * (x (ix2 p k) * s)

/-- The squared norm of train row `q`, every feature scaled by `s`. -/
def sqT (t : T8192x64.Idx → EReal) (s : EReal) (q : Fin 8192) : EReal :=
  ∑ k : Fin 64, (t (ix2 q k) * s) * (t (ix2 q k) * s)

/-- The inner product of scaled test row `p` and scaled train row `q`. -/
def cross (x : T16384x64.Idx → EReal) (t : T8192x64.Idx → EReal) (s : EReal) (p : Fin 16384) (q : Fin 8192) : EReal :=
  ∑ k : Fin 64, (x (ix2 p k) * s) * (t (ix2 q k) * s)

/-- The kernel entry of test row `p` and train row `q`: exp(−½ · max(‖x_p‖² − 2⟨x_p,t_q⟩ + ‖t_q‖², 0)). -/
def kern (x : T16384x64.Idx → EReal) (t : T8192x64.Idx → EReal) (s : EReal) (p : Fin 16384) (q : Fin 8192) : EReal :=
  Ideal.exp (mhalf * max ((sqX x s p - two * cross x t s p q) + sqT t s q) 0)

/-- One term of the result's sum: the kernel entry times the train row's weight. -/
def term (x : T16384x64.Idx → EReal) (t : T8192x64.Idx → EReal) (a : T8192x1.Idx → EReal) (s : EReal)
    (p : Fin 16384) (q : Fin 8192) : EReal :=
  kern x t s p q * a (ix2 q (0 : Fin 1))

/-- The result: at row `p`, the weighted sum of the kernel entries over all train rows. -/
def G (x : T16384x64.Idx → EReal) (t : T8192x64.Idx → EReal) (a : T8192x1.Idx → EReal) (s : EReal) :
    T16384x1.Idx → EReal :=
  fun i => ∑ q : Fin 8192, term x t a s (i 0) q

theorem G_apply (x : T16384x64.Idx → EReal) (t : T8192x64.Idx → EReal) (a : T8192x1.Idx → EReal) (s : EReal)
    (p : Fin 16384) (u : Fin 1) : G x t a s (ix2 p u) = ∑ q : Fin 8192, term x t a s p q := rfl

/-- A quotient by a nonzero extended real is the product with its reciprocal. -/
theorem div_eq_mul_recip (z l : EReal) (hl : l ≠ 0) : Ideal.div z l = z * Ideal.div 1 l := by
  rw [Ideal.div, if_neg hl, Ideal.div, if_neg hl, one_mul]

/-- A sum over 8192 indices is the sum over its eight consecutive blocks of 1024. -/
theorem sum_blocks {M : Type*} [AddCommMonoid M] (f : Fin 8192 → M) :
    ∑ j : Fin 8, ∑ r : Fin 1024, f ⟨1024 * j.val + r.val, by omega⟩ = ∑ q : Fin 8192, f q := by
  rw [← Fintype.sum_prod_type']
  refine Fintype.sum_equiv (finProdFinEquiv (m := 8) (n := 1024)) _ _ (fun jr => ?_)
  obtain ⟨j, r⟩ := jr
  refine congrArg f (Fin.ext ?_)
  show 1024 * j.val + r.val = r.val + 1024 * j.val
  omega

end Cert.Krr

end
-- ==== Proof.Payload.lean ====
/-
  The kernel body's arithmetic at one grid point, read at an index, over the extended reals.

  The body adds to the running column (one entry per test row of the block) the product of the block's kernel matrix
  with the block's weights: for test row `p` of the block,
      new(p) = old(p) + Σ_q exp(−½ · max(xsq(p) − 2·Σ_k x(p,k)·t(q,k) + tsq(q), 0)) · a(q),
  `q` running over the 1024 train rows of the block.  The first point of a row of blocks starts from zero.
-/
import proofs.«134483_j1632087572587_1_alg».proof.Proof.Gen.KernelIdeal.Skeleton
import proofs.«134483_j1632087572587_1_alg».proof.Proof.LibRowOps
import proofs.«134483_j1632087572587_1_alg».proof.Proof.LibMatmulNT
import proofs.«134483_j1632087572587_1_alg».proof.Proof.Spec

noncomputable section

namespace Cert.Krr.Pay

open Idealize.ShloMosaic Idealize.ShloMosaic.ValueIdx Cert.KernelIdeal Cert.KernelIdeal.Gen Cert.Krr

/-- One addend of a grid point's contribution: the kernel entry of block rows `p` (test) and `q` (train), times the
    train row's weight — from the five input blocks. -/
def blockTerm (v3 v5 : Vec Ideal S1024x64 .f32) (v10 : Vec Ideal S1024x1 .f32) (v16 : Vec Ideal S1x1024 .f32)
    (v26 : Vec Ideal S1024x1 .f32) (p q : Fin 1024) : EReal :=
  Ideal.exp (mhalf * max ((v10 (ix2 p (0 : Fin 1)) - two * ∑ k : Fin 64, v3 (ix2 p k) * v5 (ix2 q k))
      + v16 (ix2 (0 : Fin 1) q)) 0) * v26 (ix2 q (0 : Fin 1))

/-- The accumulating store's value at row `p`: what the column held plus the block's contribution. -/
theorem pay2_apply (v3 v5 : Vec Ideal S1024x64 .f32) (v10 : Vec Ideal S1024x1 .f32) (v16 : Vec Ideal S1x1024 .f32)
    (v26 v29 : Vec Ideal S1024x1 .f32) (p : Fin 1024) (u : Fin 1) :
    k0_pay2 (F := Ideal) v3 v5 v10 v16 v26 v29 (ix2 p u)
      = v29 (ix2 p u) + ∑ q : Fin 1024, blockTerm v3 v5 v10 v16 v26 p q := by
  have hu : u = 0 := Subsingleton.elim _ _
  subst hu
  unfold k0_pay2
  -- the closing cast is the identity; the sum of the column and the second product, pointwise
  rw [shapeCast_self, addf_apply]
  refine congrArg (v29 (ix2 p (0 : Fin 1)) + ·) ?_
  -- the second product: row `p` of the kernel matrix against the weights
  refine (Cert.RowOps.matmul_apply _ none _ _ p (0 : Fin 1)).trans ?_
  refine Finset.sum_congr rfl fun q _ => ?_
  -- the column of squared test norms, spread along the rows
  have hx : broadcastTo S1024x1024 (shapeCast S1024x1 v10 shapeCasts_S1024x1_S1024x1) broadcasts_S1024x1_S1024x1024 (ix2 p q)
      = v10 (ix2 p (0 : Fin 1)) := by
    rw [shapeCast_self]
    exact Cert.RowOps.broadcastTo_a1_ab_apply v10 _ p q
  -- the row of squared train norms, spread along the columns
  have ht : broadcastTo S1024x1024 (shapeCast S1x1024 v16 shapeCasts_S1x1024_S1x1024) broadcasts_S1x1024_S1024x1024 (ix2 p q)
      = v16 (ix2 (0 : Fin 1) q) :=
    Cert.RowOps.rowParam_spread_apply v16 _ _ p q
  -- the first product: the inner product of test row `p` and train row `q`
  have hm : matmul dot_S1024x64_S1024x64_S1024x1024_1_1_0_0_n_n none
        (truncf FTy.bf16 (shapeCast S1024x64 v3 shapeCasts_S1024x64_S1024x64) bitsLt_bf16_f32)
        (truncf FTy.bf16 (shapeCast S1024x64 v5 shapeCasts_S1024x64_S1024x64) bitsLt_bf16_f32)
        (constant (F := Ideal) S1024x1024 FTy.f32 0x00000000#32) (ix2 p q)
      = ∑ k : Fin 64, v3 (ix2 p k) * v5 (ix2 q k) := by
    rw [shapeCast_self, shapeCast_self]
    exact Cert.RowOps.matmulNT_apply _ none _ _ p q
  -- the remaining operations act entrywise
  rw [truncf_apply, truncf_apply]
  unfold blockTerm
  refine congrArg (· * v26 (ix2 q (0 : Fin 1))) ?_
  show Ideal.exp (mhalf * max ((broadcastTo S1024x1024 (shapeCast S1024x1 v10 shapeCasts_S1024x1_S1024x1) broadcasts_S1024x1_S1024x1024 (ix2 p q)
      - two * matmul dot_S1024x64_S1024x64_S1024x1024_1_1_0_0_n_n none
        (truncf FTy.bf16 (shapeCast S1024x64 v3 shapeCasts_S1024x64_S1024x64) bitsLt_bf16_f32)
        (truncf FTy.bf16 (shapeCast S1024x64 v5 shapeCasts_S1024x64_S1024x64) bitsLt_bf16_f32)
        (constant (F := Ideal) S1024x1024 FTy.f32 0x00000000#32) (ix2 p q))
      + broadcastTo S1024x1024 (shapeCast S1x1024 v16 shapeCasts_S1x1024_S1x1024) broadcasts_S1x1024_S1024x1024 (ix2 p q))
      (Ideal.ofBits .f32 0x00000000#32)) = _
  rw [hx, ht, hm, Ideal.ofBits_zero_f32]

/-- The resetting store's value: zero everywhere. -/
theorem pay1_apply (i : S1024x1.Idx) : k0_pay1 (F := Ideal) i = 0 := by
  unfold k0_pay1
  rw [shapeCast_self, broadcast_apply]
  exact Ideal.ofBits_zero_f32

end Cert.Krr.Pay

end
-- ==== Proof.HostPrefix.lean ====
/-
  What the kernel's region finds in the arrays the host computes before it: the two feature arrays multiplied by the
  reciprocal of the length scale, and the squared norms of their rows (the train rows' as one row of 8192 entries).
-/
import proofs.«134483_j1632087572587_1_alg».proof.Proof.Gen.KernelIdeal.Frame
import proofs.«134483_j1632087572587_1_alg».proof.Proof.Spec
import Idealize.ShloMosaic.Lib.StableHlo.Run
import Idealize.ShloMosaic.Lib.IdealHost
import Idealize.ShloMosaic.Lib.Pipeline.Value

noncomputable section

namespace Cert.Krr.Host

open Idealize.ShloMosaic Idealize.ShloMosaic.ValueIdx Idealize.ShloMosaic.TcCoe Idealize.SL.Sem
open Cert.KernelIdeal Cert.KernelIdeal.Gen Cert.Krr

variable (m : (ℓ : Loc nD τ sig) → Buf (Elt Ideal) ℓ)

/-- The test features as launched. -/
abbrev X (c : Dev nD) : S16384x64.Idx → EReal := m ((c : Thread nD τ).loc main_arg0)
/-- The train features as launched. -/
abbrev Tr (c : Dev nD) : S8192x64.Idx → EReal := m ((c : Thread nD τ).loc main_arg1)
/-- The weights as launched. -/
abbrev Al (c : Dev nD) : S8192x1.Idx → EReal := m ((c : Thread nD τ).loc main_arg2)
/-- The reciprocal of the length scale, as the host computes it: 1 / ℓ. -/
abbrev scale (c : Dev nD) : EReal := Ideal.div 1 ((m ((c : Thread nD τ).loc main_arg3) : S1.Idx → EReal) (ix1 (0 : Fin 1)))

/-! ## The host's operations read at an index -/

/-- The rank-0 array holding the reciprocal of the length scale, as the host's operations write it: the length scale's
    one entry reshaped to a scalar and divided into the constant one. -/
abbrev recipArr (a3 : S1.Idx → EReal) : S_.Idx → EReal :=
  Host.divf (F := Ideal) (constant (F := Ideal) S_ .f32 0x3F800000#32) (shapeCast S_ a3 shapeCasts_S1_S_)

/-- An array times that reciprocal broadcast to the array's shape, as the host's operations write it. -/
abbrev scaledArr {T : Shape} (h : S_.BroadcastsInDim T ![]) (x : T.Idx → EReal) (a3 : S1.Idx → EReal) : T.Idx → EReal :=
  mulf (F := Ideal) (φ := .f32) x (broadcastInDim T ![] h (recipArr a3))

/-- The column of the sums of squares of an array's 64-entry rows, as the host's operations write it: the array times
    itself, summed along each row from a zero initial value, the sums laid out as a column. -/
abbrev sqColArr {n : Nat} (hr : (⟨2, ![n, 64]⟩ : Shape).ReducesTo [1] ⟨1, ![n]⟩)
    (hb : (⟨1, ![n]⟩ : Shape).BroadcastsInDim ⟨2, ![n, 1]⟩ ![0])
    (y : (⟨2, ![n, 64]⟩ : Shape).Idx → EReal) : (⟨2, ![n, 1]⟩ : Shape).Idx → EReal :=
  broadcastInDim ⟨2, ![n, 1]⟩ ![0] hb
    (Host.reduceAdd (F := Ideal) (φ := .f32) (mulf (F := Ideal) (φ := .f32) y y) (constant (F := Ideal) S_ .f32 0x00000000#32) hr h_S_)

/-- The reciprocal array's one entry is one over the length scale's one entry. -/
theorem recip_apply (a3 : S1.Idx → EReal) (j : S_.Idx) : recipArr a3 j = Ideal.div 1 (a3 (ix1 (0 : Fin 1))) := by
  show (Host.divf (F := Ideal) (constant (F := Ideal) S_ .f32 0x3F800000#32) (shapeCast S_ a3 shapeCasts_S1_S_)
        : S_.Idx → EReal) j = _
  rw [hostDivf_apply, constant_apply, Ideal.ofBits_one_f32]
  refine congrArg (Ideal.div 1) (shapeCast_apply a3 shapeCasts_S1_S_ j (ix1 (0 : Fin 1)) ?_)
  rw [Shape.rowMajor_val_one]
  have h := (S_.rowMajor j).isLt
  have h1 : S_.numel = 1 := by decide
  show 0 = (S_.rowMajor j).val
  omega

/-- Each entry of the scaled array is the array's entry times the reciprocal of the length scale. -/
theorem scaled_apply {T : Shape} (h : S_.BroadcastsInDim T ![]) (x : T.Idx → EReal) (a3 : S1.Idx → EReal) (i : T.Idx) :
    scaledArr h x a3 i = x i * Ideal.div 1 (a3 (ix1 (0 : Fin 1))) := by
  show (mulf (F := Ideal) (φ := .f32) x (broadcastInDim T ![] h (recipArr a3)) : T.Idx → EReal) i = _
  rw [mulf_apply, broadcastInDim_scalar_apply, recip_apply]

/-- Each entry of the column of row sums of squares is the sum over the row of the squared entries. -/
theorem sq_col_apply {n : Nat} (hr : (⟨2, ![n, 64]⟩ : Shape).ReducesTo [1] ⟨1, ![n]⟩)
    (hr' : (⟨2, ![n, 64]⟩ : Shape).Reduces [1] ⟨1, ![n]⟩) (hn : n ≠ 1)
    (hb : (⟨1, ![n]⟩ : Shape).BroadcastsInDim ⟨2, ![n, 1]⟩ ![0])
    (y : (⟨2, ![n, 64]⟩ : Shape).Idx → EReal) (p : Fin n) (u : Fin 1) :
    sqColArr hr hb y (ix2 p u) = ∑ k : Fin 64, y (ix2 p k) * y (ix2 p k) := by
  show (broadcastInDim ⟨2, ![n, 1]⟩ ![0] hb
        (Host.reduceAdd (F := Ideal) (φ := .f32) (mulf (F := Ideal) (φ := .f32) y y) (constant (F := Ideal) S_ .f32 0x00000000#32) hr h_S_)
        : (⟨2, ![n, 1]⟩ : Shape).Idx → EReal) (ix2 p u) = _
  rw [broadcastInDim_apply ![0] hb _ (ix2 p u) (ix1 p) (fun a => match a with
    | ⟨0, _⟩ => by show p.val = if n = 1 then 0 else p.val; rw [if_neg hn])]
  rw [hostReduceAdd_apply, constant_apply, Ideal.ofBits_zero_f32, Ideal.hostReduceAdd_single hr hr', zero_add]
  refine Finset.sum_congr rfl fun k _ => ?_
  rw [mulf_apply]
  have ek : hr'.lift (ix1 p) k = ix2 p k :=
    funext fun a => Fin.ext (by match a with | ⟨0, _⟩ => rfl | ⟨1, _⟩ => rfl)
  rw [ek]
  rfl

/-! ## The arrays the region finds -/

/-- The scaled test features, whole: the host's term for them. -/
theorem V_v3_eq (c : Dev nD) :
    (V m c main_v3 : S16384x64.Idx → EReal)
      = scaledArr bcast_S_S16384x64 (X m c) (m ((c : Thread nD τ).loc main_arg3) : S1.Idx → EReal) := by
  dsimp only [Gen.V, Gen.hostOps0]
  after_results
  rfl

/-- The scaled train features, whole: the host's term for them. -/
theorem V_v5_eq (c : Dev nD) :
    (V m c main_v5 : S8192x64.Idx → EReal)
      = scaledArr bcast_S_S8192x64 (Tr m c) (m ((c : Thread nD τ).loc main_arg3) : S1.Idx → EReal) := by
  dsimp only [Gen.V, Gen.hostOps0]
  after_results
  rfl

/-- The scaled test features. -/
theorem V_v3_apply (c : Dev nD) (p : Fin 16384) (k : Fin 64) :
    (V m c main_v3 : S16384x64.Idx → EReal) (ix2 p k) = X m c (ix2 p k) * scale m c := by
  rw [V_v3_eq]
  exact scaled_apply bcast_S_S16384x64 (X m c) _ (ix2 p k)

/-- The scaled train features. -/
theorem V_v5_apply (c : Dev nD) (q : Fin 8192) (k : Fin 64) :
    (V m c main_v5 : S8192x64.Idx → EReal) (ix2 q k) = Tr m c (ix2 q k) * scale m c := by
  rw [V_v5_eq]
  exact scaled_apply bcast_S_S8192x64 (Tr m c) _ (ix2 q k)

/-- The squared norms of the scaled test rows, kept as a column. -/
theorem V_v8_apply (c : Dev nD) (p : Fin 16384) (u : Fin 1) :
    (V m c main_v8 : S16384x1.Idx → EReal) (ix2 p u) = sqX (X m c) (scale m c) p := by
  have e : (V m c main_v8 : S16384x1.Idx → EReal)
      = sqColArr reducesTo_S16384x64_S16384_d1 bcast_S16384_S16384x1_0
          (scaledArr bcast_S_S16384x64 (X m c) (m ((c : Thread nD τ).loc main_arg3) : S1.Idx → EReal)) := by
    dsimp only [Gen.V, Gen.hostOps0]
    after_results
    rfl
  rw [e]
  refine (sq_col_apply reducesTo_S16384x64_S16384_d1 (by decide) (by decide) bcast_S16384_S16384x1_0 _ p u).trans ?_
  unfold sqX
  refine Finset.sum_congr rfl fun k _ => ?_
  rw [scaled_apply]

/-- The squared norms of the scaled train rows, laid out as one row. -/
theorem V_v12_apply (c : Dev nD) (u : Fin 1) (q : Fin 8192) :
    (V m c main_v12 : S1x8192.Idx → EReal) (ix2 u q) = sqT (Tr m c) (scale m c) q := by
  have e : (V m c main_v12 : S1x8192.Idx → EReal)
      = transpose S1x8192 [1, 0]
          (sqColArr reducesTo_S8192x64_S8192_d1 bcast_S8192_S8192x1_0
            (scaledArr bcast_S_S8192x64 (Tr m c) (m ((c : Thread nD τ).loc main_arg3) : S1.Idx → EReal)))
          transposes_S8192x1_S1x8192_1_0 := by
    dsimp only [Gen.V, Gen.hostOps0]
    after_results
    rfl
  rw [e]
  rw [transpose_apply [1, 0] _ transposes_S8192x1_S1x8192_1_0 (ix2 u q) (ix2 q u) (fun b => match b with
    | ⟨0, _⟩ => rfl
    | ⟨1, _⟩ => rfl)]
  refine (sq_col_apply reducesTo_S8192x64_S8192_d1 (by decide) (by decide) bcast_S8192_S8192x1_0 _ q u).trans ?_
  unfold sqT
  refine Finset.sum_congr rfl fun k _ => ?_
  rw [scaled_apply]

end Cert.Krr.Host

end
-- ==== Proof.Accum.lean ====
/-
  The running column over a row of blocks.

  Point `n` of the grid adds to entry `p` of the running column the sum, over the 1024 train rows `q` of its block, of
  the kernel entry of its test row `p` and train row `q` times that train row's weight.  The first point of a row of
  blocks starts from zero, so after point `t` the column is the sum of the contributions of the points
  8·(t / 8), …, t.  In terms of the whole arrays a contribution is a sum of terms of the specification, and the eight
  contributions of a row of blocks together run over all 8192 train rows.
-/
import proofs.«134483_j1632087572587_1_alg».proof.Proof.Gen.KernelIdeal.Value
import proofs.«134483_j1632087572587_1_alg».proof.Proof.Pieces
import proofs.«134483_j1632087572587_1_alg».proof.Proof.Blocks
import proofs.«134483_j1632087572587_1_alg».proof.Proof.Payload
import proofs.«134483_j1632087572587_1_alg».proof.Proof.HostPrefix
import proofs.«134483_j1632087572587_1_alg».proof.Proof.Spec

noncomputable section

namespace Cert.Krr.Accum

open Idealize.ShloMosaic Idealize.ShloMosaic.TcCoe Idealize.SL.Sem Idealize.ShloMosaic.ValueIdx
open Cert.KernelIdeal Cert.KernelIdeal.Gen Cert.KernelIdeal.Value
open Cert.Krr Cert.Krr.Blocks Cert.Krr.Pay Cert.Krr.Host Cert.Krr.Pieces

variable (m : (ℓ : Loc nD τ sig) → Buf (Elt Ideal) ℓ)

/-- What point `n` adds to the running column (zero past the grid, where it is never used). -/
def contrib (c : Dev nD) (n : ℕ) (i : S1024x1.Idx) : EReal :=
  if h : n < cfg0.N then
    ∑ q : Fin 1024, blockTerm (xblk m c ⟨n, h⟩) (tblk m c ⟨n, h⟩) (xsqblk m c ⟨n, h⟩) (tsqblk m c ⟨n, h⟩) (ablk m c ⟨n, h⟩) (i 0) q
  else 0

/-- At the first point of a row of blocks the column ends at the payload over zeros, whatever it held. -/
theorem step_first (c : Dev nD) (n : ℕ) (hb : n < cfg0.N) (h0 : n % 8 = 0) (acc : Vec Ideal S1024x1 .f32) :
    scAt0_0 m c n hb acc = k0_pay2 (xblk m c (⟨n, hb⟩ : Fin cfg0.N)) (tblk m c (⟨n, hb⟩ : Fin cfg0.N)) (xsqblk m c (⟨n, hb⟩ : Fin cfg0.N)) (tsqblk m c (⟨n, hb⟩ : Fin cfg0.N)) (ablk m c (⟨n, hb⟩ : Fin cfg0.N)) (k0_pay1 (F := Ideal)) := by
  have h1 : ¬n % 8 = 7 := by omega
  unfold scAt0_0
  rw [dif_pos h0, dif_neg h1]
  exact column_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))

/-- At every other point the column ends at the payload over what it held. -/
theorem step_later (c : Dev nD) (n : ℕ) (hb : n < cfg0.N) (h0 : ¬n % 8 = 0) (acc : Vec Ideal S1024x1 .f32) :
    scAt0_0 m c n hb acc = k0_pay2 (xblk m c (⟨n, hb⟩ : Fin cfg0.N)) (tblk m c (⟨n, hb⟩ : Fin cfg0.N)) (xsqblk m c (⟨n, hb⟩ : Fin cfg0.N)) (tsqblk m c (⟨n, hb⟩ : Fin cfg0.N)) (ablk m c (⟨n, hb⟩ : Fin cfg0.N)) acc := by
  unfold scAt0_0
  rw [dif_neg h0]
  by_cases h1 : n % 8 = 7
  · rw [dif_pos h1]
    exact column_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
  · rw [dif_neg h1]
    exact column_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- The first step at an index: zero plus the point's contribution. -/
theorem step_first_apply (c : Dev nD) (n : ℕ) (hb : n < cfg0.N) (h0 : n % 8 = 0) (acc : Vec Ideal S1024x1 .f32) (i : S1024x1.Idx) :
    scAt0_0 m c n hb acc i = 0 + contrib m c n i := by
  obtain ⟨p, u, rfl⟩ : ∃ (p : Fin 1024) (u : Fin 1), i = ix2 p u := ⟨i 0, i 1, eq_ix2 i⟩
  rw [step_first m c n hb h0 acc]
  refine (pay2_apply (xblk m c (⟨n, hb⟩ : Fin cfg0.N)) (tblk m c (⟨n, hb⟩ : Fin cfg0.N)) (xsqblk m c (⟨n, hb⟩ : Fin cfg0.N)) (tsqblk m c (⟨n, hb⟩ : Fin cfg0.N)) (ablk m c (⟨n, hb⟩ : Fin cfg0.N)) (k0_pay1 (F := Ideal)) p u).trans ?_
  rw [pay1_apply]
  unfold contrib
  rw [dif_pos hb]

/-- A later step at an index: what the column held plus the point's contribution. -/
theorem step_later_apply (c : Dev nD) (n : ℕ) (hb : n < cfg0.N) (h0 : ¬n % 8 = 0) (acc : Vec Ideal S1024x1 .f32) (i : S1024x1.Idx) :
    scAt0_0 m c n hb acc i = acc i + contrib m c n i := by
  obtain ⟨p, u, rfl⟩ : ∃ (p : Fin 1024) (u : Fin 1), i = ix2 p u := ⟨i 0, i 1, eq_ix2 i⟩
  rw [step_later m c n hb h0 acc]
  refine (pay2_apply (xblk m c (⟨n, hb⟩ : Fin cfg0.N)) (tblk m c (⟨n, hb⟩ : Fin cfg0.N)) (xsqblk m c (⟨n, hb⟩ : Fin cfg0.N)) (tsqblk m c (⟨n, hb⟩ : Fin cfg0.N)) (ablk m c (⟨n, hb⟩ : Fin cfg0.N)) acc p u).trans ?_
  unfold contrib
  rw [dif_pos hb]

/-- THE RUNNING COLUMN after point `t`: the contributions of the points of its row of blocks up to `t`, summed. -/
theorem column_at (c : Dev nD) (t : Fin cfg0.N) (i : S1024x1.Idx) :
    (outsAt0 m c t.val t.isLt).2 i = 0 + ∑ s ∈ Finset.range (t.val % 8 + 1), contrib m c (8 * (t.val / 8) + s) i := by
  rw [soutsAt0_0_eq m c t]
  exact Pipeline.accAt_add_apply (fun n h => scAt0_0 m c n h (VS0_0.read (Elt Ideal) VS0_0.junk)) (scAt0_0 m c)
    (fun _ => (0 : EReal)) (contrib m c) (8 * (t.val / 8)) 7
    (fun h i => step_first_apply m c _ h (Nat.mul_mod_right 8 _) _ i)
    (fun n h acc i h1 h2 => step_later_apply m c n h (by omega) acc i)
    (t.val % 8) (by omega) _ i

/-- A point's addend in terms of the whole arrays: a term of the specification, at the point's test and train rows. -/
theorem blockTerm_eq (c : Dev nD) (t : Fin cfg0.N) (p q : Fin 1024) :
    blockTerm (xblk m c t) (tblk m c t) (xsqblk m c t) (tsqblk m c t) (ablk m c t) p q
      = term (X m c) (Tr m c) (Al m c) (scale m c) (testRow t p) (trainRow t q) := by
  unfold blockTerm term kern cross
  rw [xsqblk_apply m c t p 0, tsqblk_apply m c t 0 q, ablk_apply m c t q 0, V_v8_apply m c, V_v12_apply m c, V_main_arg2 m c]
  simp only [xblk_apply m c t, tblk_apply m c t, V_v3_apply m c, V_v5_apply m c]

/-- A point's contribution in terms of the whole arrays. -/
theorem contrib_eq (c : Dev nD) (t : Fin cfg0.N) (p : Fin 1024) (u : Fin 1) :
    contrib m c t.val (ix2 p u) = ∑ q : Fin 1024, term (X m c) (Tr m c) (Al m c) (scale m c) (testRow t p) (trainRow t q) := by
  unfold contrib
  rw [dif_pos t.isLt]
  exact Finset.sum_congr rfl fun q _ => blockTerm_eq m c t p q

end Cert.Krr.Accum

end
-- ==== Proof.Final.lean ====
/-
  The kernel's result array is the specification `G`.

  The output block of a row of blocks is written back once, at the row's last point (t % 8 = 7), as a copy of the
  running column, which by then holds the contributions of all eight points of the row: for test row `p` of the
  block the sum over all 8192 train rows of the specification's terms.  The sixteen rows of blocks tile the array.
-/
import proofs.«134483_j1632087572587_1_alg».proof.Proof.Accum

noncomputable section

namespace Cert.Krr.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value
open Cert.Krr Cert.Krr.Blocks Cert.Krr.Pay Cert.Krr.Host Cert.Krr.Pieces Cert.Krr.Accum

variable (m : (ℓ : Loc nD τ sig) → Buf (Elt Ideal) ℓ) (ρ : Dev nD → PrngReg)

/-- The specification at the launch contents of the arguments. -/
abbrev result (c : Dev nD) : S16384x1.Idx → EReal := G (X m c) (Tr m c) (Al m c) (scale m c)

/-- At the last point of a row of blocks the output block is a copy of the running column. -/
theorem out_eq_column (c : Dev nD) (t : Fin cfg0.N) (h0 : ¬t.val % 8 = 0) (h7 : t.val % 8 = 7) :
    (outsAt0 m c t.val t.isLt).1 = (outsAt0 m c t.val t.isLt).2 := by
  rw [outsAt0_C m c t h0 h7]
  dsimp only
  exact (output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t) (outsAt0 m c (t.val - 1) (Nat.lt_of_le_of_lt (Nat.sub_le _ _) t.isLt)).2).trans
    (column_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t) (outsAt0 m c (t.val - 1) (Nat.lt_of_le_of_lt (Nat.sub_le _ _) t.isLt)).2).symm

/-- The eight contributions of a row of blocks run over all train rows: their sum is the specification's sum. -/
theorem row_sum (c : Dev nD) (t : Fin cfg0.N) (p : Fin 1024) (u : Fin 1) :
    ∑ s ∈ Finset.range 8, contrib m c (8 * (t.val / 8) + s) (ix2 p u)
      = ∑ q : Fin 8192, term (X m c) (Tr m c) (Al m c) (scale m c) (testRow t p) q := by
  have hN : cfg0.N = 128 := N_0
  have ht := t.isLt
  rw [Finset.sum_range, ← sum_blocks]
  refine Finset.sum_congr rfl fun s _ => ?_
  have hs := s.isLt
  have hlt : 8 * (t.val / 8) + s.val < cfg0.N := by omega
  refine (contrib_eq m c ⟨8 * (t.val / 8) + s.val, hlt⟩ p u).trans ?_
  refine Finset.sum_congr rfl fun q _ => ?_
  have e1 : testRow ⟨8 * (t.val / 8) + s.val, hlt⟩ p = testRow t p := Fin.ext (by
    show 1024 * ((8 * (t.val / 8) + s.val) / 8) + p.val = 1024 * (t.val / 8) + p.val
    omega)
  have e2 : trainRow ⟨8 * (t.val / 8) + s.val, hlt⟩ q = ⟨1024 * s.val + q.val, by omega⟩ := Fin.ext (by
    show 1024 * ((8 * (t.val / 8) + s.val) % 8) + q.val = 1024 * s.val + q.val
    omega)
  rw [e1, e2]

/-- What the last point of a row of blocks leaves in the output block: the specification at the block's test rows. -/
theorem out_block (c : Dev nD) (t : Fin cfg0.N) (h7 : t.val % 8 = 7) (y : S1024x1.Idx) :
    (outsAt0 m c t.val t.isLt).1 y = result m c (ix2 (testRow t (y 0)) (y 1)) := by
  have h0 : ¬t.val % 8 = 0 := by omega
  obtain ⟨p, u, rfl⟩ : ∃ (p : Fin 1024) (u : Fin 1), y = ix2 p u := ⟨y 0, y 1, eq_ix2 y⟩
  rw [out_eq_column m c t h0 h7, column_at m c t (ix2 p u), h7, zero_add]
  exact row_sum m c t p u

/-- WHAT THE LAST POINT OF A ROW OF BLOCKS WRITES BACK is its block of the specification. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  rw [flushed5 m c t]
  funext j
  show (outsAt0 m c t.val t.isLt).1 j = result m c (((cfg0.win 5).blk t).view.emb j)
  refine (out_block m c t h7 j).trans ?_
  congr 1
  funext a
  apply Fin.ext
  obtain ⟨-, -, -, -, -, -, -, -, -, -, e0, e1⟩ := idx_facts t
  have hj0 : (j 0).val < 1024 := (j 0).isLt
  have hj1 : (j 1).val < 1 := (j 1).isLt
  match a with
  | ⟨0, _⟩ => show 1024 * (t.val / 8) + (j 0).val = win0_5.index t 0 * 1024 + 1 * (j 0).val; rw [e0]; omega
  | ⟨1, _⟩ => show (j 1).val = win0_5.index t 1 * 1 + 1 * (j 1).val; rw [e1]; omega

/-- An index of the result array is in point `t`'s block iff each coordinate is in the block's range on its axis. -/
theorem mem_blk (t : Fin cfg0.N) (i : S16384x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v13).slice (win0_5.rect t)).set ↔ _
  rw [View.set_slice_whole, Rect.mem_set_unit]
  exact Iff.rfl

/-- Every row of the result array lies in the block some last point of a row of blocks writes back. -/
theorem cover (i : S16384x1.Idx) : ∃ t : Fin cfg0.N, (cfg0.win 5).flush t = true ∧ i ∈ ((cfg0.win 5).blk t).view.set := by
  have hN : cfg0.N = 128 := N_0
  have hi0 : (i 0).val < 16384 := (i 0).isLt
  have hi1 : (i 1).val < 1 := (i 1).isLt
  have hlt : 8 * ((i 0).val / 1024) + 7 < cfg0.N := by omega
  refine ⟨⟨8 * ((i 0).val / 1024) + 7, hlt⟩, (flush0_5 _).mpr (by show (8 * ((i 0).val / 1024) + 7) % 8 = 7; omega), ?_⟩
  rw [mem_blk]
  obtain ⟨-, -, -, -, -, -, -, -, -, -, e0, e1⟩ := idx_facts ⟨8 * ((i 0).val / 1024) + 7, hlt⟩
  intro a
  match a with
  | ⟨0, _⟩ =>
    show win0_5.index ⟨8 * ((i 0).val / 1024) + 7, hlt⟩ 0 * 1024 ≤ (i 0).val ∧ (i 0).val < win0_5.index ⟨8 * ((i 0).val / 1024) + 7, hlt⟩ 0 * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_5.index ⟨8 * ((i 0).val / 1024) + 7, hlt⟩ 1 * 1 ≤ (i 1).val ∧ (i 1).val < win0_5.index ⟨8 * ((i 0).val / 1024) + 7, hlt⟩ 1 * 1 + 1
    rw [e1]
    omega

/-- THE RESULT ARRAY after the run is the specification. -/
theorem final (c : Dev nD) : (dats m 0 c).arrAt 5 cfg0.N = result m c :=
  (dats m 0 c).arrAt_eq_of_cover 5 (result m c) (fun t hf => flushed_eq m c t hf) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Krr.Final

end
-- ==== Proof.RefValue.lean ====
/-
  The reference's result, stage by stage, is the specification `G` — with each quotient by the length scale read as
  the product with its reciprocal, which is right where the length scale is not zero.
-/
import proofs.«134483_j1632087572587_1_alg».proof.Proof.Gen.ReferenceIdeal.Read
import proofs.«134483_j1632087572587_1_alg».proof.Proof.Spec

noncomputable section

namespace Cert.Krr.Ref

open Idealize.ShloMosaic Idealize.ShloMosaic.ValueIdx Cert.ReferenceIdeal Cert.Krr

/-- The length scale, broadcast to one row and one column, is read at its single entry wherever it is read. -/
private theorem scale_idx (j : S1x1.Idx) : Read.idx_main_v0 j = ix1 (0 : Fin 1) :=
  funext fun a => Fin.ext (by match a with | ⟨0, _⟩ => rfl)

/-- A test entry divided by the length scale is the entry times the scale factor. -/
private theorem scaledX (x0 : (⟨S16384x64, .f32⟩ : BufTy).Contents (Elt Ideal)) (x3 : (⟨S1, .f32⟩ : BufTy).Contents (Elt Ideal))
    (hl : x3 (ix1 (0 : Fin 1)) ≠ 0) (j : S16384x64.Idx) :
    Read.val_main_v2 (F := Ideal) x0 x3 j = x0 j * Ideal.div 1 (x3 (ix1 (0 : Fin 1))) := by
  rw [Read.val_main_v2_apply, Read.val_main_v1_apply, Read.val_main_v0_apply, Ideal.hostDivf_def, scale_idx,
    div_eq_mul_recip _ _ hl]

/-- A train entry divided by the length scale is the entry times the scale factor. -/
private theorem scaledT (x1 : (⟨S8192x64, .f32⟩ : BufTy).Contents (Elt Ideal)) (x3 : (⟨S1, .f32⟩ : BufTy).Contents (Elt Ideal))
    (hl : x3 (ix1 (0 : Fin 1)) ≠ 0) (j : S8192x64.Idx) :
    Read.val_main_v5 (F := Ideal) x1 x3 j = x1 j * Ideal.div 1 (x3 (ix1 (0 : Fin 1))) := by
  rw [Read.val_main_v5_apply, Read.val_main_v4_apply, Read.val_main_v3_apply, Ideal.hostDivf_def]
  rw [show Read.idx_main_v3 (Read.idx_main_v4 j) = ix1 (0 : Fin 1) from
    funext fun a => Fin.ext (by match a with | ⟨0, _⟩ => rfl), div_eq_mul_recip _ _ hl]

/-- The row sum of the squared scaled test entries, started at zero, is the squared norm of the scaled test row. -/
private theorem sqX_stage (x0 : (⟨S16384x64, .f32⟩ : BufTy).Contents (Elt Ideal)) (x3 : (⟨S1, .f32⟩ : BufTy).Contents (Elt Ideal))
    (hl : x3 (ix1 (0 : Fin 1)) ≠ 0) (p : Fin 16384) :
    Read.val_main_v7 (F := Ideal) x0 x3 (ix1 p) = sqX x0 (Ideal.div 1 (x3 (ix1 (0 : Fin 1)))) p := by
  rw [Read.val_main_v7_apply, Read.val_main_cst_apply, Ideal.ofBits_def, Ideal.ofBits_zero_f32, zero_add]
  unfold sqX
  refine Finset.sum_congr rfl fun k _ => ?_
  have e : Read.idx_main_v7 (ix1 p) k = ix2 p k :=
    funext fun a => Fin.ext (by match a with | ⟨0, _⟩ => rfl | ⟨1, _⟩ => rfl)
  rw [Read.val_main_v6_apply, Ideal.mulf_def, scaledX x0 x3 hl, e]

/-- The row sum of the squared scaled train entries, started at zero, is the squared norm of the scaled train row. -/
private theorem sqT_stage (x1 : (⟨S8192x64, .f32⟩ : BufTy).Contents (Elt Ideal)) (x3 : (⟨S1, .f32⟩ : BufTy).Contents (Elt Ideal))
    (hl : x3 (ix1 (0 : Fin 1)) ≠ 0) (q : Fin 8192) :
    Read.val_main_v16 (F := Ideal) x1 x3 (ix1 q) = sqT x1 (Ideal.div 1 (x3 (ix1 (0 : Fin 1)))) q := by
  rw [Read.val_main_v16_apply, Read.val_main_cst_1_apply, Ideal.ofBits_def, Ideal.ofBits_zero_f32, zero_add]
  unfold sqT
  refine Finset.sum_congr rfl fun k _ => ?_
  have e : Read.idx_main_v16 (ix1 q) k = ix2 q k :=
    funext fun a => Fin.ext (by match a with | ⟨0, _⟩ => rfl | ⟨1, _⟩ => rfl)
  rw [Read.val_main_v15_apply, Ideal.mulf_def, scaledT x1 x3 hl, e]

/-- The contraction of the scaled test array with the transposed scaled train array is the inner product of the rows. -/
private theorem cross_stage (x0 : (⟨S16384x64, .f32⟩ : BufTy).Contents (Elt Ideal)) (x1 : (⟨S8192x64, .f32⟩ : BufTy).Contents (Elt Ideal))
    (x3 : (⟨S1, .f32⟩ : BufTy).Contents (Elt Ideal)) (hl : x3 (ix1 (0 : Fin 1)) ≠ 0) (p : Fin 16384) (q : Fin 8192) :
    Read.val_main_v10 (F := Ideal) x0 x1 x3 (ix2 p q) = cross x0 x1 (Ideal.div 1 (x3 (ix1 (0 : Fin 1)))) p q := by
  rw [Read.val_main_v10_apply]
  unfold cross
  refine Finset.sum_congr rfl fun k _ => ?_
  have el : Read.lidx_main_v10 (ix2 p q) k = ix2 p k :=
    funext fun a => Fin.ext (by match a with | ⟨0, _⟩ => rfl | ⟨1, _⟩ => rfl)
  have er : Read.idx_main_v9 (Read.ridx_main_v10 (ix2 p q) k) = ix2 q k :=
    funext fun a => Fin.ext (by match a with | ⟨0, _⟩ => rfl | ⟨1, _⟩ => rfl)
  rw [scaledX x0 x3 hl, Read.val_main_v9_apply, scaledT x1 x3 hl, el, er]

/-- The exponential stage is the kernel entry: the three terms of the squared distance are the two squared norms and
    twice the inner product, the clamp's zero array is zero, and the two literals are the specification's. -/
private theorem kern_stage (x0 : (⟨S16384x64, .f32⟩ : BufTy).Contents (Elt Ideal)) (x1 : (⟨S8192x64, .f32⟩ : BufTy).Contents (Elt Ideal))
    (x3 : (⟨S1, .f32⟩ : BufTy).Contents (Elt Ideal)) (hl : x3 (ix1 (0 : Fin 1)) ≠ 0) (p : Fin 16384) (q : Fin 8192) :
    Read.val_main_v24 (F := Ideal) x0 x1 x3 (ix2 p q) = kern x0 x1 (Ideal.div 1 (x3 (ix1 (0 : Fin 1)))) p q := by
  have e8 : Read.idx_main_v8 (Read.idx_main_v13 (ix2 p q)) = ix1 p :=
    funext fun a => Fin.ext (by match a with | ⟨0, _⟩ => rfl)
  have e17 : Read.idx_main_v17 (Read.idx_main_v18 (ix2 p q)) = ix1 q :=
    funext fun a => Fin.ext (by match a with | ⟨0, _⟩ => rfl)
  rw [Read.val_main_v24_apply, Ideal.hostUnary_exp_def, Read.val_main_v23_apply, Ideal.mulf_def,
    Read.val_main_v22_apply, Read.val_main_cst_3_apply, Ideal.ofBits_def,
    Read.val_main_v21_apply, Ideal.maximumf_def, Read.val_main_v19_apply, Ideal.addf_def,
    Read.val_main_v14_apply, Ideal.subf_def,
    Read.val_main_v13_apply, Read.val_main_v8_apply, e8, sqX_stage x0 x3 hl,
    Read.val_main_v12_apply, Ideal.mulf_def, Read.val_main_v11_apply, Read.val_main_cst_0_apply, Ideal.ofBits_def,
    cross_stage x0 x1 x3 hl,
    Read.val_main_v18_apply, Read.val_main_v17_apply, e17, sqT_stage x1 x3 hl,
    Read.val_main_v20_apply, Read.val_main_cst_2_apply, Ideal.ofBits_def, Ideal.ofBits_zero_f32]
  rfl

/-- The reference's result array is `G` of its arguments, the scale factor being the reciprocal of the length scale. -/
theorem ref_is_G (x0 : (⟨S16384x64, .f32⟩ : BufTy).Contents (Elt Ideal)) (x1 : (⟨S8192x64, .f32⟩ : BufTy).Contents (Elt Ideal))
    (x2 : (⟨S8192x1, .f32⟩ : BufTy).Contents (Elt Ideal)) (x3 : (⟨S1, .f32⟩ : BufTy).Contents (Elt Ideal))
    (hl : x3 (ix1 (0 : Fin 1)) ≠ 0) :
    Cert.ReferenceIdeal.Read.val_main_v25 (F := Ideal) x0 x1 x2 x3 = G x0 x1 x2 (Ideal.div 1 (x3 (ix1 (0 : Fin 1)))) := by
  funext i
  obtain ⟨p, u, rfl⟩ : ∃ (p : Fin 16384) (u : Fin 1), i = ix2 p u := ⟨i 0, i 1, eq_ix2 i⟩
  rw [Read.val_main_v25_apply, G_apply]
  refine Finset.sum_congr rfl fun q _ => ?_
  have el : Read.lidx_main_v25 (ix2 p u) q = ix2 p q :=
    funext fun a => Fin.ext (by match a with | ⟨0, _⟩ => rfl | ⟨1, _⟩ => rfl)
  have er : Read.ridx_main_v25 (ix2 p u) q = ix2 q (0 : Fin 1) :=
    funext fun a => Fin.ext (by
      match a with
      | ⟨0, _⟩ => rfl
      | ⟨1, _⟩ => show u.val = 0; have := u.isLt; omega)
  rw [el, er, kern_stage x0 x1 x3 hl]
  rfl

end Cert.Krr.Ref

end
-- ==== Proof.PreDecode.lean ====
/-
  The precondition says, among other things, that the length scale is not zero.
-/
import proofs.«134483_j1632087572587_1_alg».proof.Proof.Gen.Pre_finite_inputs
import Idealize.ShloMosaic.Lib.ReduceAll
import Idealize.ShloMosaic.Lib.ValueIdx
import Idealize.ShloMosaic.PureOps.Ideal.Laws

noncomputable section

namespace Cert.Krr.Pre

open Idealize.ShloMosaic Idealize.ShloMosaic.ValueIdx Cert.Pre_finite_inputs

/-- Where the precondition holds, the one entry of the length-scale array is not zero. -/
theorem scale_ne_zero (a0 : FVec Ideal S16384x64 .f32) (a1 : FVec Ideal S8192x64 .f32) (a2 : FVec Ideal S8192x1 .f32)
    (a3 : FVec Ideal S1 .f32) (h : Cert.Pre_finite_inputs.fn (F := Ideal) a0 a1 a2 a3 = fun _ => 1#1) :
    a3 (ix1 (0 : Fin 1)) ≠ 0 := by
  have h0 := congrFun h ValueIdx.ix0
  dsimp only [fn, fn_part1] at h0
  -- the last conjunct: every entry of the length-scale array differs from the constant zero
  have hlast := (IntOp.andi_eq_one.1 h0).2
  -- the rank-0 shape has exactly one index
  haveI : Subsingleton S_.Idx := ⟨fun a b => funext fun d => d.elim0⟩
  have he := Host.reduce_andi_all _ _ _ _ ix0 hlast (ix1 (0 : Fin 1))
  -- read at the one index: the comparison of the entry with the real number zero
  have he' : Ideal.cmp .une (a3 (ix1 (0 : Fin 1))) (Ideal.ofBits .f32 0x00000000#32) = 1#1 := he
  rw [Ideal.ofBits_zero_f32] at he'
  intro hz
  rw [hz] at he'
  -- "0 ≠ 0" is false, so the comparison bit is 0, not 1
  have hbit : Ideal.cmp .une (0 : EReal) 0 = 0#1 := by
    show BitVec.ofBool (decide ((0 : EReal) ≠ 0)) = 0#1
    rw [decide_eq_false (by exact fun hne => hne rfl)]
    rfl
  rw [hbit] at he'
  exact absurd he' (by decide)

end Cert.Krr.Pre

end
-- ==== Proof.lean ====
/-
  RBF kernel ridge regression, applied:  out_p = Σ_q exp(−½ · max(‖x_p/ℓ‖² − 2⟨x_p/ℓ, t_q/ℓ⟩ + ‖t_q/ℓ‖², 0)) · a_q.

  The kernel multiplies the features by the reciprocal 1/ℓ of the length scale where the reference divides them by ℓ;
  over the extended reals the two agree exactly where ℓ ≠ 0 (at ℓ = 0 the reference's quotient 0/0 and the kernel's
  product 0·(1/0) differ), which the precondition states.  With that, both programs compute the specification `G` of
  Proof/Spec.lean: the reference stage by stage (Proof/RefValue.lean), the kernel by accumulating, over the eight
  blocks of 1024 train rows, the blocks' partial sums into a running column that the last block's point writes back
  (Proof/Payload.lean, Pieces.lean, Blocks.lean, HostPrefix.lean, Accum.lean, Final.lean); a sum over 8192 train rows
  is the sum of its eight blocks in any grouping, the extended reals' addition being commutative and associative.
  The three frames are the generated ones (the reference's is its generated run with the value dropped), and the ideal
  pass rewrote nothing, so the idealization claim is trivial.
-/
import proofs.«134483_j1632087572587_1_alg».proof.Defs
import proofs.«134483_j1632087572587_1_alg».proof.Proof.Gen.Kernel
import proofs.«134483_j1632087572587_1_alg».proof.Proof.Gen.Kernel.Skeleton
import proofs.«134483_j1632087572587_1_alg».proof.Proof.Gen.Kernel.Launch
import proofs.«134483_j1632087572587_1_alg».proof.Proof.Gen.Kernel.Points
import proofs.«134483_j1632087572587_1_alg».proof.Proof.Gen.Kernel.Frame
import proofs.«134483_j1632087572587_1_alg».proof.Proof.Gen.KernelIdeal
import proofs.«134483_j1632087572587_1_alg».proof.Proof.Gen.KernelIdeal.Skeleton
import proofs.«134483_j1632087572587_1_alg».proof.Proof.Gen.KernelIdeal.Launch
import proofs.«134483_j1632087572587_1_alg».proof.Proof.Gen.KernelIdeal.Points
import proofs.«134483_j1632087572587_1_alg».proof.Proof.Gen.KernelIdeal.Frame
import proofs.«134483_j1632087572587_1_alg».proof.Proof.Gen.ReferenceIdeal
import proofs.«134483_j1632087572587_1_alg».proof.Proof.Gen.Pre_finite_inputs
import proofs.«134483_j1632087572587_1_alg».proof.Proof.Gen.KernelIdeal.Value
import proofs.«134483_j1632087572587_1_alg».proof.Proof.Gen.ReferenceIdeal.Run
import proofs.«134483_j1632087572587_1_alg».proof.Proof.Gen.ReferenceIdeal.Read
import proofs.«134483_j1632087572587_1_alg».proof.Proof.Final
import proofs.«134483_j1632087572587_1_alg».proof.Proof.RefValue
import proofs.«134483_j1632087572587_1_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are the specification of the same arguments,
    the length scale being nonzero by the precondition. -/
theorem algebraic : Cert.algebraic_KernelIdeal_ReferenceIdeal := by
  intro m ρ m' ρ' hpre hagree
  refine ⟨fun c => Cert.Krr.Final.result m c, Cert.Krr.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2]
  exact Cert.Krr.Ref.ref_is_G _ _ _ _ (Cert.Krr.Pre.scale_ne_zero _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
